-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part3 {F : FTy → Type} [FloatOps F] (main_v48 : IVec S_ 1) (main_v49 : FVec F S128x47 .f32) (main_v50 : FVec F S128x47 .f32) : IVec S_ 1 :=
  let main_v51 : IVec S128x47 1 := cmpf .olt main_v49 main_v50
  let main_c_19 : IVec S_ 1 := constantI S_ 1 1#1
  let main_v52 : IVec S_ 1 := (fun x v => Host.reduce IntOp.andi x v reducesTo_S128x47_S_d0_1 h_S_) main_v51 main_c_19
  let main_v53 : IVec S_ 1 := andi main_v48 main_v52
  main_v53

def fn_part2 {F : FTy → Type} [FloatOps F] (main_arg8 : FVec F S128x128 .f32) (main_arg9 : FVec F S128x47 .f32) (main_arg10 : FVec F S47 .f32) (main_arg11 : FVec F S128x47 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x47 .f32 := Host.absf main_arg9
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg10
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  let main_v49 : FVec F S128x47 .f32 := Host.absf main_arg11
  let main_cst_18 : FVec F S_ .f32 := constant S_ .f32 0x7F800000#32
  let main_v50 : FVec F S128x47 .f32 := broadcastInDim S128x47 ![] bcast_S_S128x47 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x47 .f32) (main_arg10 : FVec F S47 .f32) (main_arg11 : FVec F S128x47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x47 .f32) (main_arg10 : FVec F S47 .f32) (main_arg11 : FVec F S128x47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S50000x47 : Shape := ⟨2, ![50000, 47]⟩

abbrev nBuf : Space → Nat
  | .hbm => 107
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x47, .f32⟩
  | .hbm, ⟨10, _⟩ => ⟨S47, .f32⟩
  | .hbm, ⟨11, _⟩ => ⟨S128x47, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S_, .f32⟩
  | .hbm, ⟨84, _⟩ => ⟨S800000, .f32⟩
  | .hbm, ⟨85, _⟩ => ⟨S_, .f32⟩
  | .hbm, ⟨86, _⟩ => ⟨S50000, .f32⟩
  | .hbm, ⟨87, _⟩ => ⟨S800000x1, .i32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S_, .i32⟩
  | .hbm, ⟨96, _⟩ => ⟨S_, .f32⟩
  | .hbm, ⟨97, _⟩ => ⟨S128x128, .f32⟩
  | .hbm, ⟨98, _⟩ => ⟨S_, .i32⟩
  | .hbm, ⟨99, _⟩ => ⟨S_, .f32⟩
  | .hbm, ⟨100, _⟩ => ⟨S128x128, .f32⟩
  | .hbm, ⟨101, _⟩ => ⟨S_, .i32⟩
  | .hbm, ⟨102, _⟩ => ⟨S_, .f32⟩
  | .hbm, ⟨103, _⟩ => ⟨S128, .f32⟩
  | .hbm, ⟨104, _⟩ => ⟨S1x128, .f32⟩
  | .hbm, ⟨105, _⟩ => ⟨S50000x128, .f32⟩
  | .hbm, ⟨106, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_call0_v0 : Ref sig .tc := ⟨.hbm, 96, rfl⟩
abbrev main_v65 : Ref sig .tc := ⟨.hbm, 97, rfl⟩
abbrev main_c_17 : Ref sig .tc := ⟨.hbm, 98, rfl⟩
abbrev main_call1_v0 : Ref sig .tc := ⟨.hbm, 99, rfl⟩
abbrev main_v66 : Ref sig .tc := ⟨.hbm, 100, rfl⟩
abbrev main_c_18 : Ref sig .tc := ⟨.hbm, 101, rfl⟩
abbrev main_call2_v0 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S128x47_S128x128_000_0810 : S128x47.Pads (![0, 0] : Fin 2 → Nat) ![0, 81] ![0, 0] S128x128
  h_S_ : 0 < S_.numel
  pads_S47_S128_0810 : S47.Pads (![0] : Fin 1 → Nat) ![81] ![0] S128
  shapeCasts_S128x128_S128x128 : S128x128.ShapeCasts S128x128
  slices_S50000x128_S50000x47_0_0 : S50000x128.Slices ![0, 0] S50000x47
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x47 : Shape := ⟨2, ![50000, 47]⟩
abbrev S1x47 : Shape := ⟨2, ![1, 47]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x47, .f32⟩
  | .hbm, ⟨10, _⟩ => ⟨S47, .f32⟩
  | .hbm, ⟨11, _⟩ => ⟨S128x47, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S_, .f32⟩
  | .hbm, ⟨98, _⟩ => ⟨S800000, .f32⟩
  | .hbm, ⟨99, _⟩ => ⟨S_, .f32⟩
  | .hbm, ⟨100, _⟩ => ⟨S50000, .f32⟩
  | .hbm, ⟨101, _⟩ => ⟨S800000x1, .i32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x128, .f32⟩
  | .hbm, ⟨108, _⟩ => ⟨S50000x128, .f32⟩
  | .hbm, ⟨109, _⟩ => ⟨S50000x47, .f32⟩
  | .hbm, ⟨110, _⟩ => ⟨S1x47, .f32⟩
  | .hbm, ⟨111, _⟩ => ⟨S50000x47, .f32⟩
  | .hbm, ⟨112, _⟩ => ⟨S50000x47, .f32⟩
  | .hbm, ⟨113, _⟩ => ⟨S50000x47, .f32⟩
  | .hbm, ⟨114, _⟩ => ⟨S50000x47, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.Spec.lean ====
/-
  The mathematics both programs compute, stated once over literal shapes and the extended reals.

  One layer of the network is, at node `p` and output feature `q`,

      (∑ₖ mean (p, k) · Wl (k, q)) + (∑ₖ h (p, k) · Wr (k, q)) + b q,

  where `h` holds the nodes' current features and `mean` the neighbourhood means of `h`; the two hidden layers
  follow it by a maximum with zero. The neighbourhood mean is the same function of `h` in both programs, so the
  network is stated over an arbitrary function `agg` in its place.
-/
import Idealize.ShloMosaic.PureOps.Ideal.Laws
import Idealize.ShloMosaic.Lib.ValueIdx

noncomputable section

namespace Cert.Sage

open Idealize.ShloMosaic Idealize.ShloMosaic.ValueIdx

/-- A bias vector as a function of the output feature. -/
def row {N : Nat} (b : (⟨1, ![N]⟩ : Shape).Idx → EReal) : Fin N → EReal := fun q => b (ix1 q)

/-- One layer's affine part at node `p`, feature `q`: the mean's product with `Wl`, plus the features' product with
    `Wr`, plus the bias. -/
def affineAt {M K N : Nat} (mean h : (⟨2, ![M, K]⟩ : Shape).Idx → EReal) (Wl Wr : (⟨2, ![K, N]⟩ : Shape).Idx → EReal)
    (b : Fin N → EReal) (p : Fin M) (q : Fin N) : EReal :=
  (∑ k : Fin K, mean (ix2 p k) * Wl (ix2 k q)) + (∑ k : Fin K, h (ix2 p k) * Wr (ix2 k q)) + b q

/-- The affine part as a whole array (the output layer). -/
def affine {M K N : Nat} (mean h : (⟨2, ![M, K]⟩ : Shape).Idx → EReal) (Wl Wr : (⟨2, ![K, N]⟩ : Shape).Idx → EReal)
    (b : Fin N → EReal) : (⟨2, ![M, N]⟩ : Shape).Idx → EReal :=
  fun i => affineAt mean h Wl Wr b (i 0) (i 1)

/-- The affine part followed by a maximum with zero, as a whole array (a hidden layer). -/
def affineRelu {M K N : Nat} (mean h : (⟨2, ![M, K]⟩ : Shape).Idx → EReal) (Wl Wr : (⟨2, ![K, N]⟩ : Shape).Idx → EReal)
    (b : Fin N → EReal) : (⟨2, ![M, N]⟩ : Shape).Idx → EReal :=
  fun i => max (affineAt mean h Wl Wr b (i 0) (i 1)) 0

theorem affine_apply {M K N : Nat} (mean h : (⟨2, ![M, K]⟩ : Shape).Idx → EReal) (Wl Wr : (⟨2, ![K, N]⟩ : Shape).Idx → EReal)
    (b : Fin N → EReal) (p : Fin M) (q : Fin N) : affine mean h Wl Wr b (ix2 p q) = affineAt mean h Wl Wr b p q := rfl

theorem affineRelu_apply {M K N : Nat} (mean h : (⟨2, ![M, K]⟩ : Shape).Idx → EReal) (Wl Wr : (⟨2, ![K, N]⟩ : Shape).Idx → EReal)
    (b : Fin N → EReal) (p : Fin M) (q : Fin N) :
    affineRelu mean h Wl Wr b (ix2 p q) = max (affineAt mean h Wl Wr b p q) 0 := rfl

/-- The features' array: 50000 nodes, 128 features. -/
abbrev Feat : Type := (⟨2, ![50000, 128]⟩ : Shape).Idx → EReal

/-- A hidden layer over the neighbourhood mean `agg`. -/
def hidden (agg : Feat → Feat) (h : Feat) (Wl : (⟨2, ![128, 128]⟩ : Shape).Idx → EReal) (bl : (⟨1, ![128]⟩ : Shape).Idx → EReal)
    (Wr : (⟨2, ![128, 128]⟩ : Shape).Idx → EReal) : Feat :=
  affineRelu (agg h) h Wl Wr (row bl)

/-- The three layers: two hidden layers, then the affine output layer with 47 features. -/
def net (agg : Feat → Feat) (x : Feat)
    (Wl0 : (⟨2, ![128, 128]⟩ : Shape).Idx → EReal) (bl0 : (⟨1, ![128]⟩ : Shape).Idx → EReal) (Wr0 : (⟨2, ![128, 128]⟩ : Shape).Idx → EReal)
    (Wl1 : (⟨2, ![128, 128]⟩ : Shape).Idx → EReal) (bl1 : (⟨1, ![128]⟩ : Shape).Idx → EReal) (Wr1 : (⟨2, ![128, 128]⟩ : Shape).Idx → EReal)
    (Wl2 : (⟨2, ![128, 47]⟩ : Shape).Idx → EReal) (bl2 : (⟨1, ![47]⟩ : Shape).Idx → EReal) (Wr2 : (⟨2, ![128, 47]⟩ : Shape).Idx → EReal) :
    (⟨2, ![50000, 47]⟩ : Shape).Idx → EReal :=
  affine (agg (hidden agg (hidden agg x Wl0 bl0 Wr0) Wl1 bl1 Wr1)) (hidden agg (hidden agg x Wl0 bl0 Wr0) Wl1 bl1 Wr1) Wl2 Wr2 (row bl2)

end Cert.Sage

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Region0.lean ====
/-
  The first layer's kernel, read as one array: after its ten grid points the output array holds, at node `r` and feature
  `q`, the maximum with zero of  (∑ₖ mean (r, k) · Wl (k, q)) + (∑ₖ h (r, k) · Wr (k, q)) + b q  — whatever the arrays hold
  when the region is entered.

  * The stored block at an index (`pay_apply`): over the extended reals the narrowing conversions are the identity, each
    matrix product into the zero accumulator is the plain sum over the contracted index, the [1,128] bias row is
    broadcast over the 5000 rows, and the last operation is the maximum with the zero constant.
  * The blocks (`flushed_eq`): at grid point `t` the two feature windows and the output window sit at rows
    5000·t … 5000·t + 4999 (block `(t, 0)`), the weights and the bias are whole arrays (block `(0, 0)`), so the block
    written back at `t` is block `t` of the layer's value.
  * The cover (`cover`): row `r` lies in the block of point `r / 5000`, and every point writes its block back.
-/
import proofs.«135340_j58506044506346_1_alg».proof.Proof.Gen.KernelIdeal.Frame
import proofs.«135340_j58506044506346_1_alg».proof.Proof.Spec
import proofs.«135340_j58506044506346_1_alg».proof.Proof.LibPlainDot

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

/-! ## The matrix product's dimension numbers, axis by axis -/

/-- The left operand's row is the output's row. -/
theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted index. -/
theorem dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted index. -/
theorem dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with a weight matrix, read at row `p` and column `q`. -/
theorem blockDot_apply {φ₁ φ₂ : FTy} (a : FVec Ideal S5000x128 φ₁) (w : FVec Ideal S128x128 φ₂) (p : Fin 5000) (q : Fin 128) :
    FloatOps.matmul dot_S5000x128_S128x128_S5000x128_1_0_0_1_n_n none a w (constant S5000x128 .f32 0x00000000#32) (ix2 p q)
      = ∑ k : Fin 128, a (ix2 p k) * w (ix2 k q) :=
  Cert.Lib.matmul_plain_apply (M := 5000) (K := 128) (N := 128) dot_S5000x128_S128x128_S5000x128_1_0_0_1_n_n rfl rfl
    dot_lhs_0 dot_lhs_1 dot_rhs_0 dot_rhs_1 none a w p q

/-- The bias row broadcast over the block's rows, read at `(p, q)`. -/
theorem biasRows_apply (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) fun ax => by
    match ax with
    | ⟨0, _⟩ => rfl
    | ⟨1, _⟩ => rfl

/-- The body's stored value at row `p`, column `q` of the block: the two products' sum plus the bias, then the maximum with zero. -/
theorem pay_apply (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q)
      = max ((∑ k : Fin 128, x0 (ix2 p k) * x2 (ix2 k q)) + (∑ k : Fin 128, x1 (ix2 p k) * x4 (ix2 k q)) + x3 (ix2 (0 : Fin 1) q)) 0 := by
  unfold k0_pay1
  simp only [matmul, shapeCast_self]
  rw [maximumf_apply, addf_apply, addf_apply, broadcast_apply, biasRows_apply, blockDot_apply, blockDot_apply]
  simp only [truncf_apply]
  exact congrArg (max _) Ideal.ofBits_zero_f32

/-- The same against whole arrays: where the loaded blocks agree with the arrays' rows `r` (the two feature blocks) and
    with the whole weight and bias arrays, the stored value is the layer's value at node `r`, feature `q`. -/
theorem pay_at (x0 x1 : Vec Ideal S5000x128 .f32) (x2 x4 : Vec Ideal S128x128 .f32) (x3 : Vec Ideal S1x128 .f32)
    (mean h : S50000x128.Idx → EReal) (Wl Wr : S128x128.Idx → EReal) (b : S1x128.Idx → EReal)
    (p : Fin 5000) (q : Fin 128) (r : Fin 50000)
    (h0 : ∀ k : Fin 128, x0 (ix2 p k) = mean (ix2 r k))
    (h1 : ∀ k : Fin 128, x1 (ix2 p k) = h (ix2 r k))
    (h2 : ∀ k : Fin 128, x2 (ix2 k q) = Wl (ix2 k q))
    (h4 : ∀ k : Fin 128, x4 (ix2 k q) = Wr (ix2 k q))
    (h3 : x3 (ix2 (0 : Fin 1) q) = b (ix2 (0 : Fin 1) q)) :
    k0_pay1 (F := Ideal) x0 x1 x2 x4 x3 (ix2 p q)
      = affineRelu (M := 50000) (K := 128) (N := 128) mean h Wl Wr (fun q => b (ix2 (0 : Fin 1) q)) (ix2 r q) := by
  rw [pay_apply, affineRelu_apply]
  unfold affineAt
  simp only [h0, h1, h2, h4, h3]

/-! ## From the blocks to the array -/

theorem zeros2 : (![0, 0] : Fin 2 → Nat) = fun _ => 0 := funext fun a => by
  match a with
  | ⟨0, _⟩ => rfl
  | ⟨1, _⟩ => rfl

/-- The index maps over the ten grid points: the two feature windows and the output window sit at block `(t, 0)`, the
    weight and bias windows at block `(0, 0)`. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What grid point `t` writes back is block `t` of the layer's value on the arrays as the region finds them. -/
theorem flushed_eq (c : Dev nD) (t : Fin cfg0.N) :
    (dat0 (F := Ideal) V c).flushed 5 t
      = ((cfg0.win 5).blk t).view.read (Elt Ideal) (affineRelu (M := 50000) (K := 128) (N := 128) (V c main_v22) (V c main_arg0) (V c main_arg3) (V c main_arg5) (fun q => V c main_v23 (ix2 (0 : Fin 1) q))) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S128x128) zeros2, View.ld_unit_zero (S := S1x128) zeros2]
  obtain ⟨e50, e51, e00, e01, e10, e11, e20, e21, e30, e31, e40, e41⟩ := idx_facts t
  have ht : t.val < 10 := lt_of_lt_of_eq t.isLt N_0
  funext j
  obtain ⟨p, q, rfl⟩ : ∃ (p : Fin 5000) (q : Fin 128), j = ix2 p q := ⟨j 0, j 1, eq_ix2 j⟩
  have hr : t.val * 5000 + p.val < 50000 := by have := p.isLt; omega
  show k0_pay1 (F := Ideal) (iblk0 V c 0 t) (iblk0 V c 1 t) (iblk0 V c 2 t) (iblk0 V c 4 t) (iblk0 V c 3 t) (ix2 p q)
    = affineRelu (M := 50000) (K := 128) (N := 128) (V c main_v22) (V c main_arg0) (V c main_arg3) (V c main_arg5) (fun q => V c main_v23 (ix2 (0 : Fin 1) q)) (((cfg0.win 5).blk t).view.emb (ix2 p q))
  have hemb : ((cfg0.win 5).blk t).view.emb (ix2 p q) = ix2 (⟨t.val * 5000 + p.val, hr⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [hemb]
  refine pay_at _ _ _ _ _ _ _ _ _ _ p q ⟨t.val * 5000 + p.val, hr⟩ (fun k => ?_) (fun k => ?_) (fun k => ?_) (fun k => ?_) ?_
  · show V c main_v22 (((cfg0.win 0).blk t).view.emb (ix2 p k)) = V c main_v22 (ix2 (⟨t.val * 5000 + p.val, hr⟩ : Fin 50000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg0 (((cfg0.win 1).blk t).view.emb (ix2 p k)) = V c main_arg0 (ix2 (⟨t.val * 5000 + p.val, hr⟩ : Fin 50000) k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · show V c main_arg3 (((cfg0.win 2).blk t).view.emb (ix2 k q)) = V c main_arg3 (ix2 k q)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · show V c main_arg5 (((cfg0.win 4).blk t).view.emb (ix2 k q)) = V c main_arg5 (ix2 k q)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  · show V c main_v23 (((cfg0.win 3).blk t).view.emb (ix2 (0 : Fin 1) q)) = V c main_v23 (ix2 (0 : Fin 1) q)
    refine congrArg _ (funext fun a => Fin.ext ?_)
    match a with
    | ⟨0, _⟩ => show win0_3.index t (0 : Fin 2) * 1 + 1 * (0 : Fin 1).val = (0 : Fin 1).val; omega
    | ⟨1, _⟩ => show win0_3.index t (1 : Fin 2) * 128 + 1 * q.val = q.val; omega

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The ten row blocks cover the array: node `r` is in the block of point `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨e50, e51, -⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e51]; omega

theorem final (c : Dev nD) :
    (dat0 (F := Ideal) V c).arrAt 5 cfg0.N
      = affineRelu (M := 50000) (K := 128) (N := 128) (V c main_v22) (V c main_arg0) (V c main_arg3) (V c main_arg5) (fun q => V c main_v23 (ix2 (0 : Fin 1) q)) := by
  exact (dat0 (F := Ideal) V c).arrAt_eq_of_cover 5 _ (fun t _ => flushed_eq V c t) cover

end Cert.Sage.Region0

end
-- ==== Proof.Region1.lean ====
/-
  The second layer's kernel, read as one array: after its ten grid points the output array holds, at node `r` and feature
  `q`, the maximum with zero of  (∑ₖ mean (r, k) · Wl (k, q)) + (∑ₖ h (r, k) · Wr (k, q)) + b q  — whatever the arrays hold
  when the region is entered.

  * The stored block at an index (`pay_apply`): over the extended reals the narrowing conversions and the shape casts to the
    same shape are the identity, each matrix product into the zero accumulator is the plain sum over the contracted
    index, the [1,128] bias row is broadcast over the 5000 rows, and the last operation is the maximum with the zero
    constant.
  * The blocks (`flushed_eq`): at grid point `t` the two feature windows and the output window sit at rows
    5000·t … 5000·t + 4999 (block `(t, 0)`), the weights and the bias are whole arrays (block `(0, 0)`), so the block
    written back at `t` is block `t` of the layer's value.
  * The cover (`cover`): row `r` lies in the block of point `r / 5000`, and every point writes its block back.
-/
import proofs.«135340_j58506044506346_1_alg».proof.Proof.Gen.KernelIdeal.Frame
import proofs.«135340_j58506044506346_1_alg».proof.Proof.Spec
import proofs.«135340_j58506044506346_1_alg».proof.Proof.LibPlainDot

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

/-! ## The matrix product's dimension numbers, axis by axis -/

/-- The left operand's row is the output's row. -/
theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted index. -/
theorem dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted index. -/
theorem dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with a weight matrix, read at row `p` and column `q`. -/
theorem blockDot_apply {φ₁ φ₂ : FTy} (a : FVec Ideal S5000x128 φ₁) (w : FVec Ideal S128x128 φ₂) (p : Fin 5000) (q : Fin 128) :
    FloatOps.matmul dot_S5000x128_S128x128_S5000x128_1_0_0_1_n_n none a w (constant S5000x128 .f32 0x00000000#32) (ix2 p q)
      = ∑ k : Fin 128, a (ix2 p k) * w (ix2 k q) :=
  Cert.Lib.matmul_plain_apply (M := 5000) (K := 128) (N := 128) dot_S5000x128_S128x128_S5000x128_1_0_0_1_n_n rfl rfl
    dot_lhs_0 dot_lhs_1 dot_rhs_0 dot_rhs_1 none a w p q

/-- The bias row broadcast over the block's rows, read at `(p, q)`. -/
theorem biasRows_apply (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) fun ax => by
    match ax with
    | ⟨0, _⟩ => rfl
    | ⟨1, _⟩ => rfl

/-- The body's stored value at row `p`, column `q` of the block: the two products' sum plus the bias, then the maximum with zero. -/
theorem pay_apply (x0 x1 : Vec Ideal S5000x128 .f32) (x2 x4 : Vec Ideal S128x128 .f32) (x3 : Vec Ideal S1x128 .f32)
    (p : Fin 5000) (q : Fin 128) :
    k1_pay1 (F := Ideal) x0 x1 x2 x4 x3 (ix2 p q)
      = max ((∑ k : Fin 128, x0 (ix2 p k) * x2 (ix2 k q)) + (∑ k : Fin 128, x1 (ix2 p k) * x4 (ix2 k q)) + x3 (ix2 (0 : Fin 1) q)) 0 := by
  unfold k1_pay1
  simp only [matmul, shapeCast_self]
  rw [maximumf_apply, addf_apply, addf_apply, broadcast_apply, biasRows_apply, blockDot_apply, blockDot_apply]
  simp only [truncf_apply]
  exact congrArg (max _) Ideal.ofBits_zero_f32

/-- The same against whole arrays: where the loaded blocks agree with the arrays' rows `r` (the two feature blocks) and
    with the whole weight and bias arrays, the stored value is the layer's value at node `r`, feature `q`. -/
theorem pay_at (x0 x1 : Vec Ideal S5000x128 .f32) (x2 x4 : Vec Ideal S128x128 .f32) (x3 : Vec Ideal S1x128 .f32)
    (mean h : S50000x128.Idx → EReal) (Wl Wr : S128x128.Idx → EReal) (b : S1x128.Idx → EReal)
    (p : Fin 5000) (q : Fin 128) (r : Fin 50000)
    (h0 : ∀ k : Fin 128, x0 (ix2 p k) = mean (ix2 r k))
    (h1 : ∀ k : Fin 128, x1 (ix2 p k) = h (ix2 r k))
    (h2 : ∀ k : Fin 128, x2 (ix2 k q) = Wl (ix2 k q))
    (h4 : ∀ k : Fin 128, x4 (ix2 k q) = Wr (ix2 k q))
    (h3 : x3 (ix2 (0 : Fin 1) q) = b (ix2 (0 : Fin 1) q)) :
    k1_pay1 (F := Ideal) x0 x1 x2 x4 x3 (ix2 p q)
      = affineRelu (M := 50000) (K := 128) (N := 128) mean h Wl Wr (fun q => b (ix2 (0 : Fin 1) q)) (ix2 r q) := by
  rw [pay_apply, affineRelu_apply]
  unfold affineAt
  simp only [h0, h1, h2, h4, h3]

/-! ## From the blocks to the array -/

theorem zeros2 : (![0, 0] : Fin 2 → Nat) = fun _ => 0 := funext fun a => by
  match a with
  | ⟨0, _⟩ => rfl
  | ⟨1, _⟩ => rfl

/-- The index maps over the ten grid points: the two feature windows and the output window sit at block `(t, 0)`, the
    weight and bias windows at block `(0, 0)`. -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What grid point `t` writes back is block `t` of the layer's value on the arrays as the region finds them. -/
theorem flushed_eq (c : Dev nD) (t : Fin cfg1.N) :
    (dat1 (F := Ideal) V c).flushed 5 t
      = ((cfg1.win 5).blk t).view.read (Elt Ideal) (affineRelu (M := 50000) (K := 128) (N := 128) (V c main_v43) (V c main_v24) (V c main_arg6) (V c main_arg8) (fun q => V c main_v44 (ix2 (0 : Fin 1) q))) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x128) zeros2, View.ld_unit_zero (S := S1x128) zeros2]
  obtain ⟨e50, e51, e00, e01, e10, e11, e20, e21, e30, e31, e40, e41⟩ := idx_facts t
  have ht : t.val < 10 := lt_of_lt_of_eq t.isLt N_1
  funext j
  obtain ⟨p, q, rfl⟩ : ∃ (p : Fin 5000) (q : Fin 128), j = ix2 p q := ⟨j 0, j 1, eq_ix2 j⟩
  have hr : t.val * 5000 + p.val < 50000 := by have := p.isLt; omega
  show k1_pay1 (F := Ideal) (iblk1 V c 0 t) (iblk1 V c 1 t) (iblk1 V c 2 t) (iblk1 V c 4 t) (iblk1 V c 3 t) (ix2 p q)
    = affineRelu (M := 50000) (K := 128) (N := 128) (V c main_v43) (V c main_v24) (V c main_arg6) (V c main_arg8) (fun q => V c main_v44 (ix2 (0 : Fin 1) q)) (((cfg1.win 5).blk t).view.emb (ix2 p q))
  have hemb : ((cfg1.win 5).blk t).view.emb (ix2 p q) = ix2 (⟨t.val * 5000 + p.val, hr⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [hemb]
  refine pay_at _ _ _ _ _ _ _ _ _ _ p q ⟨t.val * 5000 + p.val, hr⟩ (fun k => ?_) (fun k => ?_) (fun k => ?_) (fun k => ?_) ?_
  · show V c main_v43 (((cfg1.win 0).blk t).view.emb (ix2 p k)) = V c main_v43 (ix2 (⟨t.val * 5000 + p.val, hr⟩ : Fin 50000) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v24 (((cfg1.win 1).blk t).view.emb (ix2 p k)) = V c main_v24 (ix2 (⟨t.val * 5000 + p.val, hr⟩ : Fin 50000) k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · show V c main_arg6 (((cfg1.win 2).blk t).view.emb (ix2 k q)) = V c main_arg6 (ix2 k q)
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · show V c main_arg8 (((cfg1.win 4).blk t).view.emb (ix2 k q)) = V c main_arg8 (ix2 k q)
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  · show V c main_v44 (((cfg1.win 3).blk t).view.emb (ix2 (0 : Fin 1) q)) = V c main_v44 (ix2 (0 : Fin 1) q)
    refine congrArg _ (funext fun a => Fin.ext ?_)
    match a with
    | ⟨0, _⟩ => show win1_3.index t (0 : Fin 2) * 1 + 1 * (0 : Fin 1).val = (0 : Fin 1).val; omega
    | ⟨1, _⟩ => show win1_3.index t (1 : Fin 2) * 128 + 1 * q.val = q.val; omega

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- The ten row blocks cover the array: node `r` is in the block of point `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨e50, e51, -⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e51]; omega

theorem final (c : Dev nD) :
    (dat1 (F := Ideal) V c).arrAt 5 cfg1.N
      = affineRelu (M := 50000) (K := 128) (N := 128) (V c main_v43) (V c main_v24) (V c main_arg6) (V c main_arg8) (fun q => V c main_v44 (ix2 (0 : Fin 1) q)) := by
  exact (dat1 (F := Ideal) V c).arrAt_eq_of_cover 5 _ (fun t _ => flushed_eq V c t) cover

end Cert.Sage.Region1

end
-- ==== Proof.Region2.lean ====
import proofs.«135340_j58506044506346_1_alg».proof.Proof.Gen.KernelIdeal.Frame
import proofs.«135340_j58506044506346_1_alg».proof.Proof.Spec
import proofs.«135340_j58506044506346_1_alg».proof.Proof.LibPlainDot

set_option maxRecDepth 16384

noncomputable section

namespace Cert.Sage.Region2

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

/-! ## The contraction's axes: the product's row comes from the left operand's axis 0, its column from the right
operand's axis 1, and the one contracted index runs over the left's axis 1 and the right's axis 0. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a [5000, 128] block with a [128, 128] matrix into the zero accumulator, read at (p, q). -/
theorem dot_apply {φ₁ φ₂ : FTy} (a : FVec Ideal S5000x128 φ₁) (w : FVec Ideal S128x128 φ₂) (p : Fin 5000) (q : Fin 128) :
    matmul dot_S5000x128_S128x128_S5000x128_1_0_0_1_n_n none a w (constant S5000x128 .f32 0x00000000#32) (ix2 p q)
      = ∑ k : Fin 128, a (ix2 p k) * w (ix2 k q) :=
  Cert.Lib.matmul_plain_apply dot_S5000x128_S128x128_S5000x128_1_0_0_1_n_n rfl rfl lhs_row lhs_contr rhs_contr rhs_col none a w p q

/-- The one row of a [1, 128] matrix copied into each of 5000 rows, read at (p, q). -/
theorem bias_apply (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => rfl
    | ⟨1, _⟩ => rfl)

/-- The body's stored value at (p, q) of its block: the two products' sums and the bias. -/
theorem pay_apply (x0 x1 : Vec Ideal S5000x128 .f32) (x2 x4 : Vec Ideal S128x128 .f32) (x3 : Vec Ideal S1x128 .f32)
    (p : Fin 5000) (q : Fin 128) :
    k2_pay1 (F := Ideal) x0 x1 x2 x4 x3 (ix2 p q)
      = (∑ k : Fin 128, x0 (ix2 p k) * x2 (ix2 k q)) + (∑ k : Fin 128, x1 (ix2 p k) * x4 (ix2 k q)) + x3 (ix2 (0 : Fin 1) q) := by
  unfold k2_pay1
  simp only [shapeCast_self]
  rw [addf_apply, addf_apply, dot_apply, dot_apply, bias_apply]
  simp only [truncf_apply]

variable (V : (c : Dev nD) → (b : Ref sig .tc) → Buf (Elt Ideal) ((c : Thread nD τ).loc b))

theorem offsets_zero : (![0, 0] : Fin 2 → Nat) = fun _ => 0 := funext fun a => match a with
  | ⟨0, _⟩ => rfl
  | ⟨1, _⟩ => rfl

/-- The index maps over the grid: at point t the output's block, the mean's and the features' are block (t, 0); the two
    weight matrices' and the bias row's are block (0, 0). -/
theorem idx_facts : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- What point t writes back is block t of the affine layer of the five input arrays: row p of the block is row
    5000 t + p of the arrays, and a row of the layer reads that row of the mean and of the features, the whole of both
    weight matrices and the whole bias row. -/
theorem flushed_eq (c : Dev nD) (t : Fin cfg2.N) :
    (dat2 (F := Ideal) V c).flushed 5 t = ((cfg2.win 5).blk t).view.read (Elt Ideal)
      (affine (M := 50000) (K := 128) (N := 128) (V c main_v64) (V c main_v45) (V c main_v65) (V c main_v66) (fun q => V c main_v68 (ix2 (0 : Fin 1) q))) := by
  show (cfg2.win 5).cut (grid2.coords t) ((dat2 V c).after 5 t) = _
  rw [after2_5]
  unfold out2_5
  rw [View.canon_unit_zero offsets_zero]
  simp only [View.ld_unit_zero (S := S5000x128) offsets_zero, View.ld_unit_zero (S := S128x128) offsets_zero, View.ld_unit_zero (S := S1x128) offsets_zero]
  obtain ⟨e50, e51, e00, e01, e10, e11, e20, e21, e30, e31, e40, e41⟩ := idx_facts t
  have ht : t.val < 10 := Nat.lt_of_lt_of_eq t.isLt N_2
  funext j
  obtain ⟨p, q, rfl⟩ : ∃ (p : Fin 5000) (q : Fin 128), j = ix2 p q := ⟨j 0, j 1, eq_ix2 j⟩
  have hrow : t.val * 5000 + p.val < 50000 := by have := p.isLt; omega
  show k2_pay1 (iblk2 V c 0 t) (iblk2 V c 1 t) (iblk2 V c 2 t) (iblk2 V c 4 t) (iblk2 V c 3 t) (ix2 p q)
    = affine (M := 50000) (K := 128) (N := 128) (V c main_v64) (V c main_v45) (V c main_v65) (V c main_v66) (fun q => V c main_v68 (ix2 (0 : Fin 1) q))
        (((cfg2.win 5).blk t).view.emb (ix2 p q))
  have hO : ((cfg2.win 5).blk t).view.emb (ix2 p q) = ix2 (⟨t.val * 5000 + p.val, hrow⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  rw [hO, affine_apply]
  unfold affineAt
  refine (pay_apply (iblk2 V c 0 t) (iblk2 V c 1 t) (iblk2 V c 2 t) (iblk2 V c 4 t) (iblk2 V c 3 t) p q).trans ?_
  have r0 : ∀ k : Fin 128, iblk2 V c 0 t (ix2 p k) = V c main_v64 (ix2 (⟨t.val * 5000 + p.val, hrow⟩ : Fin 50000) k) := fun k => by
    show V c main_v64 (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have r1 : ∀ k : Fin 128, iblk2 V c 1 t (ix2 p k) = V c main_v45 (ix2 (⟨t.val * 5000 + p.val, hrow⟩ : Fin 50000) k) := fun k => by
    show V c main_v45 (((cfg2.win 1).blk t).view.emb (ix2 p k)) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  have r2 : ∀ k : Fin 128, iblk2 V c 2 t (ix2 k q) = V c main_v65 (ix2 k q) := fun k => by
    show V c main_v65 (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  have r4 : ∀ k : Fin 128, iblk2 V c 4 t (ix2 k q) = V c main_v66 (ix2 k q) := fun k => by
    show V c main_v66 (((cfg2.win 4).blk t).view.emb (ix2 k q)) = _
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = q.val; omega
  have r3 : iblk2 V c 3 t (ix2 (0 : Fin 1) q) = V c main_v68 (ix2 (0 : Fin 1) q) := by
    show V c main_v68 (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  simp only [r0, r1, r2, r4, r3]

/-- An index of the output array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v69).slice (win2_5.rect t)).set ↔ _
  rw [View.set_slice_whole, Rect.mem_set_unit]
  exact Iff.rfl

/-- The ten blocks of 5000 rows cover the array: row r lies in the block of point r / 5000, and every point writes back. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ : ∃ t : Fin cfg2.N, t.val = (i 0).val / 5000 := ⟨⟨(i 0).val / 5000, by show _ < grid2.N; rw [N_2]; omega⟩, rfl⟩
  obtain ⟨e50, e51, -⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

theorem final (c : Dev nD) :
    (dat2 (F := Ideal) V c).arrAt 5 cfg2.N
      = affine (M := 50000) (K := 128) (N := 128) (V c main_v64) (V c main_v45) (V c main_v65) (V c main_v66) (fun q => V c main_v68 (ix2 (0 : Fin 1) q)) :=
  (dat2 (F := Ideal) V c).arrAt_eq_of_cover 5 _ (fun t _ => flushed_eq V c t) cover

end Cert.Sage.Region2

end
-- ==== Proof.Agg.lean ====
/-
  The neighbourhood mean, as one function of the features: the edges' source nodes (a negative id counted from the
  end), the gather of the features at the sources, the sum of the gathered rows into each edge's destination node, and
  the quotient by the destination's in-degree (at least one). Both programs apply exactly these host operations, so
  the certificate carries them as this one function and never opens it.
-/
import proofs.«135340_j58506044506346_1_alg».proof.KernelIdeal
import Idealize.ShloMosaic.PureOps.Ideal

noncomputable section

namespace Cert.Sage

open Idealize.ShloMosaic Cert.KernelIdeal Cert.KernelIdeal.Facts₀

variable [Cert.KernelIdeal.Facts₀]

/-- Row 0 of the edge list: each edge's source node. -/
def srcOf (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list: each edge's destination node. -/
def dstOf (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The mean of the source rows of `h` over the edges that end at each node, the divisor the in-degree or one. -/
def meanAgg (src dst : (⟨S800000, .i32⟩ : BufTy).Contents (Elt Ideal)) (h : (⟨S50000x128, .f32⟩ : BufTy).Contents (Elt Ideal)) :
    (⟨S50000x128, .f32⟩ : BufTy).Contents (Elt Ideal) :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

end Cert.Sage

end
-- ==== Proof.KHost.lean ====
import proofs.«135340_j58506044506346_1_alg».proof.Proof.Gen.KernelIdeal.Frame
import proofs.«135340_j58506044506346_1_alg».proof.Proof.Spec
import proofs.«135340_j58506044506346_1_alg».proof.Proof.Agg
import Idealize.ShloMosaic.Lib.StableHlo.Run

set_option maxRecDepth 16384

noncomputable section

namespace Cert.Sage.KHost

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

/-! ## The host stretches at an arbitrary valuation

Each stretch is a straight line of operations: at a reference it writes it leaves the operations' composite at the
entry contents, and at a reference it does not write what was there. -/

section Stretches

variable (W : Valuation τ sig (Elt Ideal))

/-- The references the first stretch writes. -/
def wr0 : List (Ref sig .tc) :=
  [main_v0, main_v1, main_v2, main_v3, main_c, main_v4, main_v5, main_c_0, main_v6, main_v7, main_v8, main_v9, main_v10,
   main_cst, main_v11, main_v12, main_v13, main_cst_1, main_v14, main_cst_2, main_v15, main_v16, main_v17, main_cst_3,
   main_v18, main_v19, main_v20, main_v21, main_v22, main_v23]

theorem hostOps0_writes :
    (hostOps0 (F := Ideal)).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The first stretch leaves a reference it does not write as it was. -/
theorem keep0 {r : Ref sig .tc} (hr : r ∉ wr0) :
    StableHlo.after (hostOps0 (F := Ideal)) W (Proc.devRef .tc r) = W (Proc.devRef .tc r) :=
  StableHlo.after_of_writes_sub _ W hostOps0_writes hr

/-- The references the second stretch writes. -/
def wr1 : List (Ref sig .tc) :=
  [main_c_4, main_v25, main_v26, main_c_5, main_v27, main_v28, main_v29, main_v30, main_v31, main_cst_6, main_v32,
   main_v33, main_v34, main_cst_7, main_v35, main_cst_8, main_v36, main_v37, main_v38, main_cst_9, main_v39, main_v40,
   main_v41, main_v42, main_v43, main_v44]

theorem hostOps1_writes :
    (hostOps1 (F := Ideal)).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The second stretch leaves a reference it does not write as it was. -/
theorem keep1 {r : Ref sig .tc} (hr : r ∉ wr1) :
    StableHlo.after (hostOps1 (F := Ideal)) W (Proc.devRef .tc r) = W (Proc.devRef .tc r) :=
  StableHlo.after_of_writes_sub _ W hostOps1_writes hr

/-- The first stretch: the edges' sources, their destinations, the neighbourhood mean of the input features, and the
    first bias as a row. -/
theorem s0_v1 : StableHlo.after (hostOps0 (F := Ideal)) W (Proc.devRef .tc main_v1) = srcOf (W (Proc.devRef .tc main_arg1)) := by
  after_results_simp <;> rfl
theorem s0_v3 : StableHlo.after (hostOps0 (F := Ideal)) W (Proc.devRef .tc main_v3) = dstOf (W (Proc.devRef .tc main_arg1)) := by
  after_results_simp <;> rfl
set_option maxHeartbeats 8000000 in
theorem s0_v22 : StableHlo.after (hostOps0 (F := Ideal)) W (Proc.devRef .tc main_v22)
    = meanAgg (srcOf (W (Proc.devRef .tc main_arg1))) (dstOf (W (Proc.devRef .tc main_arg1))) (W (Proc.devRef .tc main_arg0)) := by
  after_results_simp <;> rfl
theorem s0_v23 : StableHlo.after (hostOps0 (F := Ideal)) W (Proc.devRef .tc main_v23)
    = shapeCast S1x128 (W (Proc.devRef .tc main_arg4)) shapeCasts_S128_S1x128 := by
  after_results_simp <;> rfl

set_option maxHeartbeats 8000000 in
/-- The second stretch: the neighbourhood mean of the first layer's output, and the second bias as a row. -/
theorem s1_v43 : StableHlo.after (hostOps1 (F := Ideal)) W (Proc.devRef .tc main_v43)
    = meanAgg (W (Proc.devRef .tc main_v1)) (W (Proc.devRef .tc main_v3)) (W (Proc.devRef .tc main_v24)) := by
  after_results_simp <;> rfl
theorem s1_v44 : StableHlo.after (hostOps1 (F := Ideal)) W (Proc.devRef .tc main_v44)
    = shapeCast S1x128 (W (Proc.devRef .tc main_arg7)) shapeCasts_S128_S1x128 := by
  after_results_simp <;> rfl

/-- The last stretch: the first 47 columns of the third region's output. -/
theorem s3_v70 : StableHlo.after (hostOps3 (F := Ideal)) W (Proc.devRef .tc main_v70)
    = extractStridedSlice S50000x47 ![0, 0] (W (Proc.devRef .tc main_v69)) slices_S50000x128_S50000x47_0_0 := by
  after_results_simp <;> rfl

end Stretches

variable (m : (ℓ : Loc nD τ sig) → Buf (Elt Ideal) ℓ) (ρ : Dev nD → PrngReg) (c : Dev nD)

/-- The edge list as launched. -/
abbrev ei : (⟨S2x800000, .i32⟩ : BufTy).Contents (Elt Ideal) := m ((c : Thread nD τ).loc main_arg1)

/-- What region 0 leaves in its output array, and what region 1 leaves in its. -/
abbrev H1 : (⟨S50000x128, .f32⟩ : BufTy).Contents (Elt Ideal) := (dat0 (F := Ideal) (V1 m ρ) c).arrAt 5 cfg0.N
abbrev H2 : (⟨S50000x128, .f32⟩ : BufTy).Contents (Elt Ideal) := (dat1 (F := Ideal) (V3 m ρ) c).arrAt 5 cfg1.N
abbrev H3 : (⟨S50000x128, .f32⟩ : BufTy).Contents (Elt Ideal) := (dat2 (F := Ideal) (V11 m ρ) c).arrAt 5 cfg2.N

/-! ## Walking a buffer back through the fold -/

/-- At region 0's exit, a buffer that the first stretch does not write and that is none of region 0's arrays is as
    launched. -/
theorem W2_launch {r : Ref sig .tc} (h0 : r ∉ wr0) (ha0 : ∀ w, Pipeline.arrRef spec0 w ≠ r) :
    W2 m ρ c (Proc.devRef .tc r) = m ((c : Thread nD τ).loc r) :=
  (W2_of_ne m ρ c r ha0).trans (keep0 (W0 m ρ c) h0)

/-- The same at region 1's exit, for a buffer the second stretch and region 1 leave alone as well. -/
theorem W4_launch {r : Ref sig .tc} (h0 : r ∉ wr0) (ha0 : ∀ w, Pipeline.arrRef spec0 w ≠ r)
    (h1 : r ∉ wr1) (ha1 : ∀ w, Pipeline.arrRef spec1 w ≠ r) :
    W4 m ρ c (Proc.devRef .tc r) = m ((c : Thread nD τ).loc r) :=
  (W4_of_ne m ρ c r ha1).trans ((keep1 (W2 m ρ c) h1).trans (W2_launch m ρ c h0 ha0))

/-- The edges' sources and destinations, computed once by the first stretch, are still there at region 0's exit and at
    region 1's. -/
theorem W2_v1 : W2 m ρ c (Proc.devRef .tc main_v1) = srcOf (ei m c) :=
  (W2_of_ne m ρ c main_v1 (by decide)).trans (s0_v1 (W0 m ρ c))
theorem W2_v3 : W2 m ρ c (Proc.devRef .tc main_v3) = dstOf (ei m c) :=
  (W2_of_ne m ρ c main_v3 (by decide)).trans (s0_v3 (W0 m ρ c))
theorem W4_v1 : W4 m ρ c (Proc.devRef .tc main_v1) = srcOf (ei m c) :=
  (W4_of_ne m ρ c main_v1 (by decide)).trans ((keep1 (W2 m ρ c) (by decide)).trans (W2_v1 m ρ c))
theorem W4_v3 : W4 m ρ c (Proc.devRef .tc main_v3) = dstOf (ei m c) :=
  (W4_of_ne m ρ c main_v3 (by decide)).trans ((keep1 (W2 m ρ c) (by decide)).trans (W2_v3 m ρ c))

/-- Each region's output array at the region's exit. -/
theorem W2_v24 : W2 m ρ c (Proc.devRef .tc main_v24) = H1 m ρ c := W2_arr m ρ c 5
theorem W4_v45 : W4 m ρ c (Proc.devRef .tc main_v45) = H2 m ρ c := W4_arr m ρ c 5
theorem W12_v69 : W12 m ρ c (Proc.devRef .tc main_v69) = H3 m ρ c := W12_arr m ρ c 5

/-! ## Region 0's arrays at its entry -/
theorem V1_v22 : V1 m ρ c main_v22 = meanAgg (srcOf (ei m c)) (dstOf (ei m c)) (m ((c : Thread nD τ).loc main_arg0)) :=
  s0_v22 (W0 m ρ c)
theorem V1_arg0 : V1 m ρ c main_arg0 = m ((c : Thread nD τ).loc main_arg0) := keep0 (W0 m ρ c) (by decide)
theorem V1_arg3 : V1 m ρ c main_arg3 = m ((c : Thread nD τ).loc main_arg3) := keep0 (W0 m ρ c) (by decide)
theorem V1_arg5 : V1 m ρ c main_arg5 = m ((c : Thread nD τ).loc main_arg5) := keep0 (W0 m ρ c) (by decide)
theorem V1_v23 : V1 m ρ c main_v23 = shapeCast S1x128 (m ((c : Thread nD τ).loc main_arg4)) shapeCasts_S128_S1x128 :=
  s0_v23 (W0 m ρ c)

/-! ## Region 1's arrays at its entry -/
theorem V3_v43 : V3 m ρ c main_v43 = meanAgg (srcOf (ei m c)) (dstOf (ei m c)) (H1 m ρ c) := by
  refine (s1_v43 (W2 m ρ c)).trans ?_
  rw [W2_v1 m ρ c, W2_v3 m ρ c, W2_v24 m ρ c]
theorem V3_v24 : V3 m ρ c main_v24 = H1 m ρ c := (keep1 (W2 m ρ c) (by decide)).trans (W2_v24 m ρ c)
theorem V3_arg6 : V3 m ρ c main_arg6 = m ((c : Thread nD τ).loc main_arg6) :=
  (keep1 (W2 m ρ c) (by decide)).trans (W2_launch m ρ c (by decide) (by decide))
theorem V3_arg8 : V3 m ρ c main_arg8 = m ((c : Thread nD τ).loc main_arg8) :=
  (keep1 (W2 m ρ c) (by decide)).trans (W2_launch m ρ c (by decide) (by decide))
theorem V3_v44 : V3 m ρ c main_v44 = shapeCast S1x128 (m ((c : Thread nD τ).loc main_arg7)) shapeCasts_S128_S1x128 := by
  refine (s1_v44 (W2 m ρ c)).trans ?_
  rw [W2_launch m ρ c (r := main_arg7) (by decide) (by decide)]

/-! ## Region 2's arrays at its entry -/
/-- The padding value: the integer zero converted. -/
abbrev padZero : (⟨S_, .f32⟩ : BufTy).Contents (Elt Ideal) := sitofp (F := Ideal) .f32 (constantI S_ 32 0#32)

/-- The seven stretches between region 1's exit and region 2's entry, as one map of valuations. -/
abbrev entry2 (W : Valuation τ sig (Elt Ideal)) : Valuation τ sig (Elt Ideal) :=
  StableHlo.after (hostOps2_6 (F := Ideal)) (StableHlo.after hostOps2_5 (StableHlo.after hostOps2_4 (StableHlo.after hostOps2_3
    (StableHlo.after hostOps2_2 (StableHlo.after hostOps2_1 (StableHlo.after hostOps2 W))))))

set_option maxHeartbeats 8000000 in
/-- They compute the neighbourhood mean of the second layer's output, leave that output alone, pad the last layer's two
    weight matrices with 81 zero columns each, and pad its bias with 81 zeros and make it a row. -/
theorem s2_v64 (W : Valuation τ sig (Elt Ideal)) : entry2 W (Proc.devRef .tc main_v64)
    = meanAgg (W (Proc.devRef .tc main_v1)) (W (Proc.devRef .tc main_v3)) (W (Proc.devRef .tc main_v45)) := by
  after_results_simp <;> rfl
set_option maxHeartbeats 8000000 in
theorem s2_v45 (W : Valuation τ sig (Elt Ideal)) : entry2 W (Proc.devRef .tc main_v45) = W (Proc.devRef .tc main_v45) := by
  after_results_simp
set_option maxHeartbeats 8000000 in
theorem s2_v65 (W : Valuation τ sig (Elt Ideal)) : entry2 W (Proc.devRef .tc main_v65)
    = pad S128x128 ![0, 0] ![0, 81] ![0, 0] (W (Proc.devRef .tc main_arg9)) padZero pads_S128x47_S128x128_000_0810 h_S_ := by
  after_results_simp <;> rfl
set_option maxHeartbeats 8000000 in
theorem s2_v66 (W : Valuation τ sig (Elt Ideal)) : entry2 W (Proc.devRef .tc main_v66)
    = pad S128x128 ![0, 0] ![0, 81] ![0, 0] (W (Proc.devRef .tc main_arg11)) padZero pads_S128x47_S128x128_000_0810 h_S_ := by
  after_results_simp <;> rfl
set_option maxHeartbeats 8000000 in
theorem s2_v68 (W : Valuation τ sig (Elt Ideal)) : entry2 W (Proc.devRef .tc main_v68)
    = shapeCast S1x128 (pad S128 ![0] ![81] ![0] (W (Proc.devRef .tc main_arg10)) padZero pads_S47_S128_0810 h_S_) shapeCasts_S128_S1x128 := by
  after_results_simp <;> rfl

theorem V11_v64 : V11 m ρ c main_v64 = meanAgg (srcOf (ei m c)) (dstOf (ei m c)) (H2 m ρ c) := by
  refine (s2_v64 (W4 m ρ c)).trans ?_
  rw [W4_v1 m ρ c, W4_v3 m ρ c, W4_v45 m ρ c]
theorem V11_v45 : V11 m ρ c main_v45 = H2 m ρ c := (s2_v45 (W4 m ρ c)).trans (W4_v45 m ρ c)
theorem V11_v65 : V11 m ρ c main_v65 = pad S128x128 ![0, 0] ![0, 81] ![0, 0] (m ((c : Thread nD τ).loc main_arg9)) padZero pads_S128x47_S128x128_000_0810 h_S_ := by
  refine (s2_v65 (W4 m ρ c)).trans ?_
  rw [W4_launch m ρ c (r := main_arg9) (by decide) (by decide) (by decide) (by decide)]
theorem V11_v66 : V11 m ρ c main_v66 = pad S128x128 ![0, 0] ![0, 81] ![0, 0] (m ((c : Thread nD τ).loc main_arg11)) padZero pads_S128x47_S128x128_000_0810 h_S_ := by
  refine (s2_v66 (W4 m ρ c)).trans ?_
  rw [W4_launch m ρ c (r := main_arg11) (by decide) (by decide) (by decide) (by decide)]
theorem V11_v68 : V11 m ρ c main_v68 = shapeCast S1x128 (pad S128 ![0] ![81] ![0] (m ((c : Thread nD τ).loc main_arg10)) padZero pads_S47_S128_0810 h_S_) shapeCasts_S128_S1x128 := by
  refine (s2_v68 (W4 m ρ c)).trans ?_
  rw [W4_launch m ρ c (r := main_arg10) (by decide) (by decide) (by decide) (by decide)]

/-! ## The result buffer at the return -/
theorem W13_v70 : W13 m ρ c (Proc.devRef .tc main_v70) = extractStridedSlice S50000x47 ![0, 0] (H3 m ρ c) slices_S50000x128_S50000x47_0_0 := by
  refine (s3_v70 (W12 m ρ c)).trans ?_
  rw [W12_v69 m ρ c]

end Cert.Sage.KHost

end
-- ==== Proof.LastLayer.lean ====
import proofs.«135340_j58506044506346_1_alg».proof.Proof.Gen.KernelIdeal
import proofs.«135340_j58506044506346_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.Sage.LastLayer

open Idealize.ShloMosaic Idealize.ShloMosaic.ValueIdx
open Cert.KernelIdeal Cert.KernelIdeal.Facts₀ Cert.Sage

/-- A bias vector recast as a one-row matrix, read along that row, is the bias as a function of the feature. -/
theorem row_cast (b : (⟨S128, .f32⟩ : BufTy).Contents (Elt Ideal)) :
    (fun q : Fin 128 => shapeCast S1x128 b shapeCasts_S128_S1x128 (ix2 (0 : Fin 1) q)) = row b := by
  funext q
  refine shapeCast_apply b shapeCasts_S128_S1x128 (ix2 (0 : Fin 1) q) (ix1 q) ?_
  rw [Shape.rowMajor_val_two, Shape.rowMajor_val_one]
  show q.val = 0 * 128 + q.val
  omega

/-- The output layer computed over weights and bias padded with 81 more columns, its first 47 columns kept, is the
    output layer over the weights and bias themselves: a kept column never reads a padded entry. -/
theorem out_eq (mean h : Feat) (Wl Wr : (⟨S128x47, .f32⟩ : BufTy).Contents (Elt Ideal)) (bl : (⟨S47, .f32⟩ : BufTy).Contents (Elt Ideal))
    (z : (⟨S_, .f32⟩ : BufTy).Contents (Elt Ideal)) :
    extractStridedSlice S50000x47 ![0, 0]
        (affine (M := 50000) (K := 128) (N := 128) mean h
          (pad S128x128 ![0, 0] ![0, 81] ![0, 0] Wl z pads_S128x47_S128x128_000_0810 h_S_)
          (pad S128x128 ![0, 0] ![0, 81] ![0, 0] Wr z pads_S128x47_S128x128_000_0810 h_S_)
          (fun q => shapeCast S1x128 (pad S128 ![0] ![81] ![0] bl z pads_S47_S128_0810 h_S_) shapeCasts_S128_S1x128 (ix2 (0 : Fin 1) q)))
        slices_S50000x128_S50000x47_0_0
      = affine (M := 50000) (K := 128) (N := 47) mean h Wl Wr (row bl) := by
  funext i
  obtain ⟨p, q, rfl⟩ : ∃ (p : Fin 50000) (q : Fin 47), i = ix2 p q := ⟨i 0, i 1, eq_ix2 i⟩
  have hq : q.val < 128 := by have := q.isLt; omega
  -- the slice at offsets (0, 0) reads its operand at (p, q), the column now among 128
  rw [extractStridedSlice_apply ![0, 0] _ slices_S50000x128_S50000x47_0_0 (ix2 p q) (ix2 p (⟨q.val, hq⟩ : Fin 128))
    (fun a => match a with
      | ⟨0, _⟩ => by show p.val = 0 + p.val; omega
      | ⟨1, _⟩ => by show q.val = 0 + q.val; omega)]
  rw [affine_apply, affine_apply]
  unfold affineAt
  -- a kept column of a padded weight matrix is that column of the matrix
  have hW : ∀ (W : (⟨S128x47, .f32⟩ : BufTy).Contents (Elt Ideal)) (k : Fin 128),
      pad S128x128 ![0, 0] ![0, 81] ![0, 0] W z pads_S128x47_S128x128_000_0810 h_S_ (ix2 k (⟨q.val, hq⟩ : Fin 128))
        = W (ix2 k q) := fun W k =>
    pad_apply_of_inside ![0, 0] ![0, 81] ![0, 0] W z pads_S128x47_S128x128_000_0810 h_S_ _ (ix2 k q)
      (fun a => match a with
        | ⟨0, _⟩ => by show k.val = 0 + k.val * (0 + 1); omega
        | ⟨1, _⟩ => by show q.val = 0 + q.val * (0 + 1); omega)
  -- a kept entry of the padded bias, read through the one-row cast, is that entry of the bias
  have hb : shapeCast S1x128 (pad S128 ![0] ![81] ![0] bl z pads_S47_S128_0810 h_S_) shapeCasts_S128_S1x128
        (ix2 (0 : Fin 1) (⟨q.val, hq⟩ : Fin 128)) = row bl q := by
    have h1 := congrFun (row_cast (pad S128 ![0] ![81] ![0] bl z pads_S47_S128_0810 h_S_)) (⟨q.val, hq⟩ : Fin 128)
    refine h1.trans ?_
    show pad S128 ![0] ![81] ![0] bl z pads_S47_S128_0810 h_S_ (ix1 (⟨q.val, hq⟩ : Fin 128)) = bl (ix1 q)
    exact pad_apply_of_inside ![0] ![81] ![0] bl z pads_S47_S128_0810 h_S_ _ (ix1 q)
      (fun a => match a with
        | ⟨0, _⟩ => by show q.val = 0 + q.val * (0 + 1); omega)
  simp only [hW, hb]

end Cert.Sage.LastLayer

end
-- ==== Proof.KValue.lean ====
/-
  The kernel program's result as the three-layer network: the result buffer is the first 47 columns of what the third
  region leaves; each region leaves one layer of its entry arrays; the entry arrays are the neighbourhood mean of the
  previous layer's features, those features, and the launch's weights and bias (the last layer's padded with zero
  columns, which the kept columns never read).
-/
import proofs.«135340_j58506044506346_1_alg».proof.Proof.Region0
import proofs.«135340_j58506044506346_1_alg».proof.Proof.Region1
import proofs.«135340_j58506044506346_1_alg».proof.Proof.Region2
import proofs.«135340_j58506044506346_1_alg».proof.Proof.KHost
import proofs.«135340_j58506044506346_1_alg».proof.Proof.LastLayer

set_option maxRecDepth 16384

noncomputable section

namespace Cert.Sage.KValue

open Idealize.ShloMosaic Idealize.ShloMosaic.TcCoe Idealize.ShloMosaic.ValueIdx Idealize.SL.Sem
open Cert.KernelIdeal Cert.KernelIdeal.Gen Cert.Sage Cert.Sage.KHost

variable (m : (ℓ : Loc nD τ sig) → Buf (Elt Ideal) ℓ) (ρ : Dev nD → PrngReg) (c : Dev nD)

/-- The neighbourhood mean over the launch's edge list. -/
abbrev aggOf : Feat → Feat := meanAgg (srcOf (ei m c)) (dstOf (ei m c))

/-- The first region leaves the first hidden layer. -/
theorem h1_eq : H1 m ρ c = hidden (aggOf m c) (m ((c : Thread nD τ).loc main_arg0))
    (m ((c : Thread nD τ).loc main_arg3)) (m ((c : Thread nD τ).loc main_arg4)) (m ((c : Thread nD τ).loc main_arg5)) :=
  (Region0.final (V1 m ρ) c).trans (by
    rw [V1_v22, V1_arg0, V1_arg3, V1_arg5, V1_v23, LastLayer.row_cast]
    rfl)

/-- The second region leaves the second hidden layer. -/
theorem h2_eq : H2 m ρ c = hidden (aggOf m c) (hidden (aggOf m c) (m ((c : Thread nD τ).loc main_arg0))
      (m ((c : Thread nD τ).loc main_arg3)) (m ((c : Thread nD τ).loc main_arg4)) (m ((c : Thread nD τ).loc main_arg5)))
    (m ((c : Thread nD τ).loc main_arg6)) (m ((c : Thread nD τ).loc main_arg7)) (m ((c : Thread nD τ).loc main_arg8)) :=
  (Region1.final (V3 m ρ) c).trans (by
    rw [V3_v43, V3_v24, V3_arg6, V3_arg8, V3_v44, LastLayer.row_cast, h1_eq]
    rfl)

/-- The result buffer at the return is the network of the launch's arguments. -/
theorem result_eq : W13 m ρ c (Proc.devRef .tc main_v70)
    = net (aggOf m c) (m ((c : Thread nD τ).loc main_arg0))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) :=
  (W13_v70 m ρ c).trans (by
    rw [show H3 m ρ c = _ from Region2.final (V11 m ρ) c, V11_v64, V11_v45, V11_v65, V11_v66, V11_v68, LastLayer.out_eq, h2_eq]
    rfl)

end Cert.Sage.KValue

end
-- ==== Proof.RefStages.lean ====
import proofs.«135340_j58506044506346_1_alg».proof.Proof.Gen.ReferenceIdeal.Run
import proofs.«135340_j58506044506346_1_alg».proof.Proof.Gen.ReferenceIdeal.Read
import proofs.«135340_j58506044506346_1_alg».proof.Proof.Gen.KernelIdeal
import proofs.«135340_j58506044506346_1_alg».proof.Proof.Spec
import proofs.«135340_j58506044506346_1_alg».proof.Proof.Agg

noncomputable section

namespace Cert.Sage.RefStages

open Idealize.ShloMosaic Idealize.ShloMosaic.ValueIdx
open Cert.ReferenceIdeal Cert.ReferenceIdeal.Read Cert.Sage

/-! ## The neighbourhood mean of each layer is the shared aggregation -/

/-- The first layer's neighbourhood mean is the shared aggregation of the input features. -/
theorem agg0 (x0 : (⟨S50000x128, .f32⟩ : BufTy).Contents (Elt Ideal)) (x1 : (⟨S2x800000, .i32⟩ : BufTy).Contents (Elt Ideal)) :
    val_main_v22 (F := Ideal) x0 x1 = meanAgg (srcOf x1) (dstOf x1) x0 := by
  unfold val_main_v22 val_main_v21 val_main_v20 val_main_v19 val_main_v18 val_main_cst_3 val_main_v17 val_main_v16 val_main_v15 val_main_cst_2
    val_main_v14 val_main_cst_1 val_main_v13 val_main_v12 val_main_v11 val_main_cst val_main_v10 val_main_v9 val_main_v8 val_main_v7 val_main_v6
    val_main_c_0 val_main_v5 val_main_v4 val_main_c val_main_v3 val_main_v2 val_main_v1 val_main_v0 meanAgg srcOf dstOf
  rfl

/-- The second layer's neighbourhood mean is the shared aggregation of the first layer's result. -/
theorem agg1 (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v48 (F := Ideal) x0 x1 x3 x4 x5 = meanAgg (srcOf x1) (dstOf x1) (val_main_v29 (F := Ideal) x0 x1 x3 x4 x5) := by
  unfold val_main_v48 val_main_v39 val_main_v36
  generalize val_main_v29 (F := Ideal) x0 x1 x3 x4 x5 = h
  unfold val_main_v47 val_main_v46 val_main_v45 val_main_v44 val_main_cst_9 val_main_v43 val_main_v42 val_main_v41 val_main_cst_8
    val_main_v40 val_main_cst_7 val_main_v38 val_main_v37 val_main_cst_6 val_main_v35 val_main_v34 val_main_v33 val_main_v32
    val_main_c_5 val_main_v31 val_main_v30 val_main_c_4 val_main_v3 val_main_v2 val_main_v1 val_main_v0 meanAgg srcOf dstOf
  rfl

/-- The third layer's neighbourhood mean is the shared aggregation of the second layer's result. -/
theorem agg2 (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v74 (F := Ideal) x0 x1 x3 x4 x5 x6 x7 x8
      = meanAgg (srcOf x1) (dstOf x1) (val_main_v55 (F := Ideal) x0 x1 x3 x4 x5 x6 x7 x8) := by
  unfold val_main_v74 val_main_v65 val_main_v62
  generalize val_main_v55 (F := Ideal) x0 x1 x3 x4 x5 x6 x7 x8 = h
  unfold val_main_v73 val_main_v72 val_main_v71 val_main_v70 val_main_cst_15 val_main_v69 val_main_v68 val_main_v67 val_main_cst_14
    val_main_v66 val_main_cst_13 val_main_v64 val_main_v63 val_main_cst_12 val_main_v61 val_main_v60 val_main_v59 val_main_v58
    val_main_c_11 val_main_v57 val_main_v56 val_main_c_10 val_main_v3 val_main_v2 val_main_v1 val_main_v0 meanAgg srcOf dstOf
  rfl

/-! ## The operations of one layer, read at a node and a feature -/

/-- A bias over 128 features broadcast along the nodes, read at (p, q), is the bias at q. -/
theorem bias128_apply (b : (⟨S128, .f32⟩ : BufTy).Contents (Elt Ideal)) (p : Fin 50000) (q : Fin 128) :
    broadcastInDim S50000x128 ![0, 1] Gen.bcast_S1x128_S50000x128_0_1 (broadcastInDim S1x128 ![1] Gen.bcast_S128_S1x128_1 b) (ix2 p q)
      = row b q := by
  refine (val_main_v25_apply b (ix2 p q)).trans ((val_main_v24_apply b _).trans ?_)
  exact congrArg b (funext fun a => Fin.ext (by match a with | ⟨0, _⟩ => rfl))

/-- A bias over 47 features broadcast along the nodes, read at (p, q), is the bias at q. -/
theorem bias47_apply (b : (⟨S47, .f32⟩ : BufTy).Contents (Elt Ideal)) (p : Fin 50000) (q : Fin 47) :
    broadcastInDim S50000x47 ![0, 1] Gen.bcast_S1x47_S50000x47_0_1 (broadcastInDim S1x47 ![1] Gen.bcast_S47_S1x47_1 b) (ix2 p q)
      = row b q := by
  refine (val_main_v77_apply b (ix2 p q)).trans ((val_main_v76_apply b _).trans ?_)
  exact congrArg b (funext fun a => Fin.ext (by match a with | ⟨0, _⟩ => rfl))

/-- The zero splat is the extended real zero at every index. -/
theorem zero128_apply (i : S50000x128.Idx) :
    broadcastInDim S50000x128 ![] Gen.bcast_S_S50000x128 (constant (F := Ideal) S_ .f32 0x00000000#32) i = (0 : EReal) := by
  refine (val_main_call0_v0_apply (F := Ideal) i).trans ?_
  rw [val_main_call0_cst_apply, Ideal.ofBits_def, Ideal.ofBits_zero_f32]

/-- The product of a [50000, 128] array with a [128, 128] matrix, read at (p, q): ∑ₖ l (p, k) · r (k, q). -/
theorem dot128_apply (l : (⟨S50000x128, .f32⟩ : BufTy).Contents (Elt Ideal)) (r : (⟨S128x128, .f32⟩ : BufTy).Contents (Elt Ideal)) (p : Fin 50000) (q : Fin 128) :
    Host.dotGeneral (F := Ideal) (φ₁ := .f32) (φ₂ := .f32) dot_S50000x128_S128x128_S50000x128_1_0_0_1_n_n none l r (ix2 p q)
      = ∑ k : Fin 128, l (ix2 p k) * r (ix2 k q) := by
  refine (val_main_v27_apply l r (ix2 p q)).trans (Finset.sum_congr rfl fun k _ => ?_)
  have el : lidx_main_v27 (ix2 p q) k = ix2 p k := funext fun a => Fin.ext (by match a with | ⟨0, _⟩ => rfl | ⟨1, _⟩ => rfl)
  have er : ridx_main_v27 (ix2 p q) k = ix2 k q := funext fun a => Fin.ext (by match a with | ⟨0, _⟩ => rfl | ⟨1, _⟩ => rfl)
  rw [el, er]

/-- The product of a [50000, 128] array with a [128, 47] matrix, read at (p, q): ∑ₖ l (p, k) · r (k, q). The sum over
    the one contracted axis is re-indexed by its coordinate; the operands' indices at (p, q) and k are (p, k) and (k, q). -/
theorem dot47_apply (l : (⟨S50000x128, .f32⟩ : BufTy).Contents (Elt Ideal)) (r : (⟨S128x47, .f32⟩ : BufTy).Contents (Elt Ideal)) (p : Fin 50000) (q : Fin 47) :
    Host.dotGeneral (F := Ideal) (φ₁ := .f32) (φ₂ := .f32) dot_S50000x128_S128x47_S50000x47_1_0_0_1_n_n none l r (ix2 p q)
      = ∑ k : Fin 128, l (ix2 p k) * r (ix2 k q) := by
  simp only [Host.dotGeneral]
  rw [Ideal.dotGeneral_apply, ← Equiv.sum_comp (contrEquiv1 dot_S50000x128_S128x47_S50000x47_1_0_0_1_n_n 128 rfl rfl).symm]
  refine Finset.sum_congr rfl fun k _ => ?_
  have hk := contrEquiv1_symm_val dot_S50000x128_S128x47_S50000x47_1_0_0_1_n_n 128 rfl rfl k
  have el : dot_S50000x128_S128x47_S50000x47_1_0_0_1_n_n.lhsIdx (ix2 p q)
      ((contrEquiv1 dot_S50000x128_S128x47_S50000x47_1_0_0_1_n_n 128 rfl rfl).symm k) = ix2 p k := funext fun a => Fin.ext (by
    match a with
    | ⟨0, _⟩ => exact lhs_main_v75_0 _ _
    | ⟨1, _⟩ => exact (lhs_main_v75_1 _ _).trans hk)
  have er : dot_S50000x128_S128x47_S50000x47_1_0_0_1_n_n.rhsIdx (ix2 p q)
      ((contrEquiv1 dot_S50000x128_S128x47_S50000x47_1_0_0_1_n_n 128 rfl rfl).symm k) = ix2 k q := funext fun a => Fin.ext (by
    match a with
    | ⟨0, _⟩ => exact (rhs_main_v75_0 _ _).trans hk
    | ⟨1, _⟩ => exact rhs_main_v75_1 _ _)
  rw [el, er]

/-! ## One layer over arbitrary operands -/

/-- A hidden layer as the reference computes it — the mean's product plus the bias, plus the features' product, then
    the maximum with zero — is the specification's hidden layer: the two sums of three terms differ by the order of
    addition only. -/
theorem relu_layer (mean h : (⟨S50000x128, .f32⟩ : BufTy).Contents (Elt Ideal)) (Wl Wr : (⟨S128x128, .f32⟩ : BufTy).Contents (Elt Ideal)) (b : (⟨S128, .f32⟩ : BufTy).Contents (Elt Ideal)) :
    maximumf
        (addf
          (addf (Host.dotGeneral (F := Ideal) (φ₁ := .f32) (φ₂ := .f32) dot_S50000x128_S128x128_S50000x128_1_0_0_1_n_n none mean Wl)
            (broadcastInDim S50000x128 ![0, 1] Gen.bcast_S1x128_S50000x128_0_1 (broadcastInDim S1x128 ![1] Gen.bcast_S128_S1x128_1 b)))
          (Host.dotGeneral (F := Ideal) (φ₁ := .f32) (φ₂ := .f32) dot_S50000x128_S128x128_S50000x128_1_0_0_1_n_n none h Wr))
        (broadcastInDim S50000x128 ![] Gen.bcast_S_S50000x128 (constant (F := Ideal) S_ .f32 0x00000000#32))
      = affineRelu mean h Wl Wr (row b) := by
  funext i
  obtain ⟨p, q, rfl⟩ : ∃ (p : Fin 50000) (q : Fin 128), i = ix2 p q := ⟨i 0, i 1, eq_ix2 i⟩
  rw [affineRelu_apply]
  show FloatOps.maximumf (FloatOps.addf (FloatOps.addf
      (Host.dotGeneral (F := Ideal) (φ₁ := .f32) (φ₂ := .f32) dot_S50000x128_S128x128_S50000x128_1_0_0_1_n_n none mean Wl (ix2 p q))
      (broadcastInDim S50000x128 ![0, 1] Gen.bcast_S1x128_S50000x128_0_1 (broadcastInDim S1x128 ![1] Gen.bcast_S128_S1x128_1 b) (ix2 p q)))
      (Host.dotGeneral (F := Ideal) (φ₁ := .f32) (φ₂ := .f32) dot_S50000x128_S128x128_S50000x128_1_0_0_1_n_n none h Wr (ix2 p q)))
      (broadcastInDim S50000x128 ![] Gen.bcast_S_S50000x128 (constant (F := Ideal) S_ .f32 0x00000000#32) (ix2 p q)) = _
  rw [dot128_apply, dot128_apply, bias128_apply, zero128_apply, Ideal.maximumf_def, Ideal.addf_def, Ideal.addf_def]
  unfold affineAt
  rw [add_right_comm]

/-- The output layer as the reference computes it is the specification's affine layer with 47 features. -/
theorem out_layer (mean h : (⟨S50000x128, .f32⟩ : BufTy).Contents (Elt Ideal)) (Wl Wr : (⟨S128x47, .f32⟩ : BufTy).Contents (Elt Ideal)) (b : (⟨S47, .f32⟩ : BufTy).Contents (Elt Ideal)) :
    addf
        (addf (Host.dotGeneral (F := Ideal) (φ₁ := .f32) (φ₂ := .f32) dot_S50000x128_S128x47_S50000x47_1_0_0_1_n_n none mean Wl)
          (broadcastInDim S50000x47 ![0, 1] Gen.bcast_S1x47_S50000x47_0_1 (broadcastInDim S1x47 ![1] Gen.bcast_S47_S1x47_1 b)))
        (Host.dotGeneral (F := Ideal) (φ₁ := .f32) (φ₂ := .f32) dot_S50000x128_S128x47_S50000x47_1_0_0_1_n_n none h Wr)
      = affine mean h Wl Wr (row b) := by
  funext i
  obtain ⟨p, q, rfl⟩ : ∃ (p : Fin 50000) (q : Fin 47), i = ix2 p q := ⟨i 0, i 1, eq_ix2 i⟩
  rw [affine_apply]
  show FloatOps.addf (FloatOps.addf
      (Host.dotGeneral (F := Ideal) (φ₁ := .f32) (φ₂ := .f32) dot_S50000x128_S128x47_S50000x47_1_0_0_1_n_n none mean Wl (ix2 p q))
      (broadcastInDim S50000x47 ![0, 1] Gen.bcast_S1x47_S50000x47_0_1 (broadcastInDim S1x47 ![1] Gen.bcast_S47_S1x47_1 b) (ix2 p q)))
      (Host.dotGeneral (F := Ideal) (φ₁ := .f32) (φ₂ := .f32) dot_S50000x128_S128x47_S50000x47_1_0_0_1_n_n none h Wr (ix2 p q)) = _
  rw [dot47_apply, dot47_apply, bias47_apply, Ideal.addf_def, Ideal.addf_def]
  unfold affineAt
  rw [add_right_comm]

/-! ## The three layers of the reference -/

/-- The reference's first layer is the hidden layer over the input features. -/
theorem layer1 (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v29 (F := Ideal) x0 x1 x3 x4 x5 = hidden (meanAgg (srcOf x1) (dstOf x1)) x0 x3 x4 x5 := by
  unfold hidden
  rw [← agg0 x0 x1]
  unfold val_main_v29 val_main_v28 val_main_v26 val_main_v23 val_main_v27 val_main_v25 val_main_v24 val_main_call0_v0 val_main_call0_cst
  generalize val_main_v22 (F := Ideal) x0 x1 = mean
  exact relu_layer mean x0 x3 x5 x4

/-- The reference's second layer is the hidden layer over the first layer's result. -/
theorem layer2 (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v55 (F := Ideal) x0 x1 x3 x4 x5 x6 x7 x8
      = hidden (meanAgg (srcOf x1) (dstOf x1)) (val_main_v29 (F := Ideal) x0 x1 x3 x4 x5) x6 x7 x8 := by
  unfold hidden
  rw [← agg1 x0 x1 x3 x4 x5]
  unfold val_main_v55 val_main_v54 val_main_v52 val_main_v49 val_main_v53 val_main_v51 val_main_v50 val_main_call1_v0 val_main_call1_cst
  generalize val_main_v48 (F := Ideal) x0 x1 x3 x4 x5 = mean
  generalize val_main_v29 (F := Ideal) x0 x1 x3 x4 x5 = h
  exact relu_layer mean h x6 x8 x7

/-- The reference's third layer is the affine output layer over the second layer's result. -/
theorem layer3 (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal))
    (x9 : (⟨S128x47, .f32⟩ : BufTy).Contents (Elt Ideal)) (x10 : (⟨S47, .f32⟩ : BufTy).Contents (Elt Ideal)) (x11 : (⟨S128x47, .f32⟩ : BufTy).Contents (Elt Ideal)) :
    val_main_v80 (F := Ideal) x0 x1 x3 x4 x5 x6 x7 x8 x9 x10 x11
      = affine (meanAgg (srcOf x1) (dstOf x1) (val_main_v55 (F := Ideal) x0 x1 x3 x4 x5 x6 x7 x8))
          (val_main_v55 (F := Ideal) x0 x1 x3 x4 x5 x6 x7 x8) x9 x11 (row x10) := by
  rw [← agg2 x0 x1 x3 x4 x5 x6 x7 x8]
  unfold val_main_v80 val_main_v78 val_main_v75 val_main_v79 val_main_v77 val_main_v76
  generalize val_main_v74 (F := Ideal) x0 x1 x3 x4 x5 x6 x7 x8 = mean
  generalize val_main_v55 (F := Ideal) x0 x1 x3 x4 x5 x6 x7 x8 = h
  exact out_layer mean h x9 x11 x10

/-- The reference's result, as a function of its arguments, is the three-layer network over the neighbourhood mean. -/
theorem ref_net (x0 : (⟨S50000x128, .f32⟩ : BufTy).Contents (Elt Ideal)) (x1 : (⟨S2x800000, .i32⟩ : BufTy).Contents (Elt Ideal))
    (x3 : (⟨S128x128, .f32⟩ : BufTy).Contents (Elt Ideal)) (x4 : (⟨S128, .f32⟩ : BufTy).Contents (Elt Ideal)) (x5 x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128x47, .f32⟩ : BufTy).Contents (Elt Ideal))
    (x10 : (⟨S47, .f32⟩ : BufTy).Contents (Elt Ideal)) (x11 : (⟨S128x47, .f32⟩ : BufTy).Contents (Elt Ideal)) :
    val_main_v80 (F := Ideal) x0 x1 x3 x4 x5 x6 x7 x8 x9 x10 x11
      = net (meanAgg (srcOf x1) (dstOf x1)) x0 x3 x4 x5 x6 x7 x8 x9 x10 x11 := by
  rw [layer3, layer2, layer1]
  unfold net
  rfl

end Cert.Sage.RefStages

end
-- ==== Proof.lean ====
/-
  A three-layer graph network, each layer `mean · Wl + h · Wr + b` of the nodes' features `h` and their neighbourhood
  means, the first two layers followed by a maximum with zero, the last of 47 output features.

  The kernel program computes each layer's dense part in a region over ten blocks of 5000 of the 50000 nodes, the two
  matrix products into a zero accumulator, added, then the bias; the neighbourhood mean (gather the source rows, add
  them into the destination rows, divide by the in-degree or one) runs on the host between the regions, and the last
  layer's weights and bias are padded with 81 zero columns that the final slice drops again. The reference computes
  `(mean · Wl + b) + h · Wr` with whole-array products. Over the extended reals the two are one function of the
  arguments: a change of float format is the identity, a row block of a matrix product is the product's rows, addition
  is commutative and associative (so no input need be finite), a kept column never reads a padded entry, and the
  neighbourhood mean is the same chain of host operations in both programs.

  The frames of the two kernel programs are the generated ones; the reference's frame is its generated run; the ideal
  pass rewrote nothing, so `preserves` is trivial.
-/
import proofs.«135340_j58506044506346_1_alg».proof.Defs
import proofs.«135340_j58506044506346_1_alg».proof.Proof.Gen.Kernel
import proofs.«135340_j58506044506346_1_alg».proof.Proof.Gen.Kernel.Skeleton
import proofs.«135340_j58506044506346_1_alg».proof.Proof.Gen.Kernel.Launch
import proofs.«135340_j58506044506346_1_alg».proof.Proof.Gen.Kernel.Points
import proofs.«135340_j58506044506346_1_alg».proof.Proof.Gen.Kernel.Frame
import proofs.«135340_j58506044506346_1_alg».proof.Proof.Gen.KernelIdeal
import proofs.«135340_j58506044506346_1_alg».proof.Proof.Gen.KernelIdeal.Skeleton
import proofs.«135340_j58506044506346_1_alg».proof.Proof.Gen.KernelIdeal.Launch
import proofs.«135340_j58506044506346_1_alg».proof.Proof.Gen.KernelIdeal.Points
import proofs.«135340_j58506044506346_1_alg».proof.Proof.Gen.KernelIdeal.Frame
import proofs.«135340_j58506044506346_1_alg».proof.Proof.Gen.ReferenceIdeal
import proofs.«135340_j58506044506346_1_alg».proof.Proof.Gen.ReferenceIdeal.Run
import proofs.«135340_j58506044506346_1_alg».proof.Proof.Gen.ReferenceIdeal.Read
import proofs.«135340_j58506044506346_1_alg».proof.Proof.Gen.Pre_finite_inputs
import proofs.«135340_j58506044506346_1_alg».proof.Proof.KRun
import proofs.«135340_j58506044506346_1_alg».proof.Proof.KValue
import proofs.«135340_j58506044506346_1_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result: the kernel program's run posts the result
    buffer at the last boundary's contents, which is the network; the reference's run posts its composed term, which is
    the network of its own arguments, and those agree with the kernel program's. -/
theorem algebraic : Cert.algebraic_KernelIdeal_ReferenceIdeal := by
  intro m ρ m' ρ' _ hagree
  refine ⟨fun c => Cert.Sage.net (Cert.Sage.KValue.aggOf m c) (m ((c.tc : Thread Cert.KernelIdeal.nD Cert.KernelIdeal.τ).loc Cert.KernelIdeal.main_arg0))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    ?_, ?_⟩
  · exact (θ_run Cert.KernelIdeal.defs _ _).mono
      (fun r h c => ⟨(h c).1.trans (Cert.Sage.KValue.result_eq m ρ c), (h c).2⟩)
      (Cert.KernelIdeal.Run.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v80_eq, Cert.Sage.RefStages.ref_net, e0, e1, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
